-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_mult2 : BitVec 32 :=
  let c1_i32 : BitVec 32 := 1#32
  let c512_i32_7 : BitVec 32 := 512#32
  let v31 : BitVec 32 := Scalar.muli c1_i32 c512_i32_7
  v31
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S512x1024 : 0 < S512x1024.numel
  reduces_S512x1024_S512 : S512x1024.Reduces [1] S512
  shapeCasts_S512_S512x1 : S512.ShapeCasts S512x1
  broadcasts_S512x1_S512x1024 : S512x1.Broadcasts S512x1024
  hrank0 : 0 < grid0.rank
  k0_mult1_dvd : 512 ∣ k0_mult1.toNat
  k0_off1_inb : ∀ (r : Fin 2), ∀ a, (k0_off1 (BitVec.ofNat 32 r.val)) a + S512x1024.size a ≤ S1024x1024.size a
  k0_mult2_dvd : 512 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1 : S_.BroadcastsInDim S16384x1 (![] : Fin 0 → Fin S16384x1.rank)
  bcast_S_S16384x1024 : S_.BroadcastsInDim S16384x1024 (![] : Fin 0 → Fin S16384x1024.rank)

variable [Facts₀]

class Facts : Prop extends Facts₀ where

variable [Facts]
-- ==== Proof.Finite.lean ====
/-
  The precondition, read. The printed predicate is "all |A| < +∞ and all |B| < +∞" as two all-reductions of
  one-bit comparisons joined by an and. Where it is all ones, every comparison is one, so at every index
  max x (-x) < ⊤ on the extended reals: x is neither infinity, hence a real number.
-/
import proofs.«408143_j51127290692314_3_alg».proof.Proof.Gen.Pre_finite_inputs
import Idealize.ShloMosaic.PureOps.Ideal.Laws
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Cert.Pre_finite_inputs Cert.Pre_finite_inputs.Facts

instance : Subsingleton S_.Idx := ⟨fun a b => funext fun d => d.elim0⟩

/-- The word of +∞ denotes the top of the extended reals. -/
theorem ofBits_inf : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- One all-reduction of the comparison, all ones: every entry of the array is a real. -/
theorem real_of_all (X : FVec Ideal S16384x1024 .f32)
    (h : Host.reduce IntOp.andi
      (cmpf .olt (Host.absf X) (broadcastInDim S16384x1024 ![] bcast_S_S16384x1024 (constant (F := Ideal) S_ .f32 0x7F800000#32)))
      (constantI S_ 1 1#1) reducesTo_S16384x1024_S_d0_1 h_S_ ix0 = 1#1) (i : S16384x1024.Idx) :
    ∃ r : ℝ, X i = (r : EReal) := by
  have hi := Host.reduce_andi_all _ _ reducesTo_S16384x1024_S_d0_1 h_S_ ix0 h i
  rw [cmpf_apply, broadcastInDim_apply _ bcast_S_S16384x1024 _ i ix0 (fun a => a.elim0), constant_apply, ofBits_inf] at hi
  exact real_of_abs_lt (X i) hi

/-- Where the printed precondition is all ones, every entry of both arrays is a real number. -/
theorem reals_of_pre (A B : FVec Ideal S16384x1024 .f32) (h : fn (F := Ideal) A B = fun _ => 1#1) :
    (∀ i, ∃ r : ℝ, A i = (r : EReal)) ∧ (∀ i, ∃ r : ℝ, B i = (r : EReal)) := by
  have h0 := congrFun h ix0
  dsimp only [fn] at h0
  obtain ⟨hA, hB⟩ := IntOp.andi_eq_one.1 h0
  exact ⟨real_of_all A hA, real_of_all B hB⟩

end Cert.Finite

end
-- ==== Proof.Consts.lean ====
/-
  The float constants both programs spell, as the extended reals their words denote: 1, 2 and 1/2 exactly, and the
  small positive guard the norms' product is clamped below by (its word is a positive normal number: a positive
  real, which is all that is used of it).
-/
import Idealize.ShloMosaic.PureOps.Ideal

noncomputable section

namespace Cert.Consts

open Idealize.ShloMosaic

/-- The word of `1.0` denotes the real 1. -/
theorem ofBits_one : Ideal.ofBits .f32 0x3F800000#32 = ((1 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

/-- The word of `0.5` denotes the real 1/2. -/
theorem ofBits_half : Ideal.ofBits .f32 0x3F000000#32 = ((1 / 2 : ℝ) : EReal) := by
  simp [Ideal.ofBits, Ideal.ieee, -EReal.coe_mul]; norm_num

/-- The guard's word (the float nearest 1e-8) denotes a positive real. -/
theorem ofBits_guard : ∃ e : ℝ, 0 < e ∧ Ideal.ofBits .f32 0x322BCC77#32 = (e : EReal) := by
  refine ⟨(1 : ℝ) * ((2 ^ 23 + 2870391 : ℕ) : ℝ) * (2 : ℝ) ^ ((100 : ℤ) - (2 ^ (8 - 1) - 1) - (23 : ℕ)), by positivity, ?_⟩
  simp [Ideal.ofBits, Ideal.ieee, -EReal.coe_mul]

end Cert.Consts

end
-- ==== Proof.RowLaw.lean ====
/-
  One row of the merge, as mathematics. For two rows a, b (indexed by a finite type) the weight is
      w = one - ⟨a, b⟩ / max (√(Σ a²) · √(Σ b²)) guard,
  and the merged entry over (x, y) = (a q, b q) is written two ways:
      y + (half · w) · (x - y)              (a step from y towards x)
      (w · x + (two - w) · y) · half        (a weighted mean).
  On the extended reals the two differ at infinities (distributivity fails there); for rows of real numbers,
  with guard > 0 so that the quotient's divisor is a nonzero real, w is a real number and both are the same real,
  since two · half = 1.
-/
import Idealize.ShloMosaic.PureOps.Ideal
import proofs.«408143_j51127290692314_3_alg».proof.Proof.Consts

noncomputable section

namespace Cert.RowLaw

open Idealize.ShloMosaic

/-- A finite sum of reals, cast to the extended reals term by term, is the cast of the sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The square root of a nonnegative real, on the extended reals, is the real square root. -/
theorem sqrt_of_nonneg {r : ℝ} (h : 0 ≤ r) : Ideal.sqrt (r : EReal) = ((Real.sqrt r : ℝ) : EReal) := by
  rw [Ideal.sqrt_coe, if_neg (not_lt.2 h)]

/-- The cast of a maximum of two reals is the maximum of the casts (the cast is monotone). -/
theorem coe_max (x y : ℝ) : ((max x y : ℝ) : EReal) = max (x : EReal) (y : EReal) :=
  EReal.coe_strictMono.monotone.map_max

variable {ι : Type} [Fintype ι]

/-- The row's weight: `one` minus the inner product over the clamped product of the two norms. -/
def weight (one guard : EReal) (a b : ι → EReal) : EReal :=
  one - Ideal.div (∑ k, a k * b k) (max (Ideal.sqrt (∑ k, a k * a k) * Ideal.sqrt (∑ k, b k * b k)) guard)

/-- The merged entry as a step from `y` towards `x`. -/
def step (half w x y : EReal) : EReal := y + (half * w) * (x - y)

/-- The merged entry as a weighted mean of `x` and `y`. -/
def mean (half two w x y : EReal) : EReal := (w * x + (two - w) * y) * half

/-- For rows of reals, a real `one` and a positive real guard, the weight is a real number: the three sums are real,
    the sums of squares are nonnegative so their roots are real, the clamped product is at least the guard, hence
    a nonzero real, and the quotient by it is the product with its reciprocal. -/
theorem weight_real {one guard : EReal} {o e : ℝ} (ho : one = (o : EReal)) (he : guard = (e : EReal)) (hpos : 0 < e)
    (a b : ι → EReal) (a' b' : ι → ℝ) (ha : ∀ k, a k = (a' k : EReal)) (hb : ∀ k, b k = (b' k : EReal)) :
    ∃ w : ℝ, weight one guard a b = (w : EReal) := by
  have hd : ∑ k, a k * b k = ((∑ k, a' k * b' k : ℝ) : EReal) := by
    rw [← coe_sum]; exact Finset.sum_congr rfl fun k _ => by rw [ha, hb, EReal.coe_mul]
  have hsa : ∑ k, a k * a k = ((∑ k, a' k * a' k : ℝ) : EReal) := by
    rw [← coe_sum]; exact Finset.sum_congr rfl fun k _ => by rw [ha, EReal.coe_mul]
  have hsb : ∑ k, b k * b k = ((∑ k, b' k * b' k : ℝ) : EReal) := by
    rw [← coe_sum]; exact Finset.sum_congr rfl fun k _ => by rw [hb, EReal.coe_mul]
  have na : (0 : ℝ) ≤ ∑ k, a' k * a' k := Finset.sum_nonneg fun k _ => mul_self_nonneg _
  have nb : (0 : ℝ) ≤ ∑ k, b' k * b' k := Finset.sum_nonneg fun k _ => mul_self_nonneg _
  have hne : max (Real.sqrt (∑ k, a' k * a' k) * Real.sqrt (∑ k, b' k * b' k)) e ≠ 0 :=
    (lt_of_lt_of_le hpos (le_max_right _ _)).ne'
  unfold weight
  rw [hd, hsa, hsb, ho, he, sqrt_of_nonneg na, sqrt_of_nonneg nb, ← EReal.coe_mul, ← coe_max,
    Ideal.div_coe hne, ← EReal.coe_mul, ← EReal.coe_sub]
  exact ⟨_, rfl⟩

/-- On reals, with `half = 1/2` and `two = 2`, the weighted mean is the step. -/
theorem mean_eq_step (w x y : ℝ) :
    mean ((1 / 2 : ℝ) : EReal) ((2 : ℝ) : EReal) (w : EReal) (x : EReal) (y : EReal)
      = step ((1 / 2 : ℝ) : EReal) (w : EReal) (x : EReal) (y : EReal) := by
  unfold mean step
  simp only [← EReal.coe_mul, ← EReal.coe_add, ← EReal.coe_sub]
  congr 1
  ring

/-! ## The two forms of one merged entry, over the programs' constants -/

/-- The kernel's form of entry `q` of the merged row. -/
def stepRow (a b : ι → EReal) (q : ι) : EReal :=
  step (Ideal.ofBits .f32 0x3F000000#32)
    (weight (Ideal.ofBits .f32 0x3F800000#32) (Ideal.ofBits .f32 0x322BCC77#32) a b) (a q) (b q)

/-- The reference's form of entry `q` of the merged row. -/
def meanRow (a b : ι → EReal) (q : ι) : EReal :=
  mean (Ideal.ofBits .f32 0x3F000000#32) (Ideal.ofBits .f32 0x40000000#32)
    (weight (Ideal.ofBits .f32 0x3F800000#32) (Ideal.ofBits .f32 0x322BCC77#32) a b) (a q) (b q)

/-- For rows of reals the reference's entry is the kernel's. -/
theorem meanRow_eq_stepRow (a b : ι → EReal) (ha : ∀ k, ∃ r : ℝ, a k = (r : EReal)) (hb : ∀ k, ∃ r : ℝ, b k = (r : EReal))
    (q : ι) : meanRow a b q = stepRow a b q := by
  choose a' ha' using ha
  choose b' hb' using hb
  obtain ⟨e, hpos, he⟩ := Cert.Consts.ofBits_guard
  obtain ⟨w, hw⟩ := weight_real Cert.Consts.ofBits_one he hpos a b a' b' ha' hb'
  unfold meanRow stepRow
  rw [hw, ha' q, hb' q, Cert.Consts.ofBits_half, Cert.Consts.ofBits_two]
  exact mean_eq_step w (a' q) (b' q)

end Cert.RowLaw

end
-- ==== Proof.RefRow.lean ====
/-
  The reference at one entry. Entry (r, q) of the reference's result depends only on rows r of the two arguments:
  the three row sums (each the host's sum from the zero word, so the sum itself), the two roots, the clamped
  product, the quotient, and then the weighted mean (w · A[r,q] + (2 - w) · B[r,q]) · 1/2. The column broadcasts
  [16384] → [16384,1] → [16384,1024] read row r at every column.
-/
import proofs.«408143_j51127290692314_3_alg».proof.Proof.Gen.ReferenceIdeal.Read
import proofs.«408143_j51127290692314_3_alg».proof.Proof.RowLaw
import Idealize.ShloMosaic.Lib.ValueIdx
import Idealize.ShloMosaic.PureOps.Ideal.Laws

noncomputable section

namespace Cert.ReferenceIdeal.RefRow

open Cert.ReferenceIdeal Cert.ReferenceIdeal.Read Idealize.ShloMosaic Idealize.ShloMosaic.ValueIdx

/-- The reference's result at (r, q) is the weighted-mean form over rows r of the arguments. -/
theorem result_apply (x0 x1 : (⟨S16384x1024, .f32⟩ : BufTy).Contents (Elt Ideal)) (r : Fin 16384) (q : Fin 1024) :
    val_main_v19 (F := Ideal) x0 x1 (ix2 r q)
      = Cert.RowLaw.meanRow (fun k : Fin 1024 => x0 (ix2 r k)) (fun k : Fin 1024 => x1 (ix2 r k)) q := by
  have e11 : idx_main_v11 (ix2 r q) = ix2 r (0 : Fin 1) :=
    funext fun a => Fin.ext (by match a with | ⟨0, _⟩ => rfl | ⟨1, _⟩ => rfl)
  have e15 : idx_main_v15 (ix2 r q) = ix2 r (0 : Fin 1) :=
    funext fun a => Fin.ext (by match a with | ⟨0, _⟩ => rfl | ⟨1, _⟩ => rfl)
  have e10 : idx_main_v10 (ix2 r (0 : Fin 1)) = ix1 r :=
    funext fun a => Fin.ext (by match a with | ⟨0, _⟩ => rfl)
  have e1 : ∀ k : Fin 1024, idx_main_v1 (ix1 r) k = ix2 r k := fun k =>
    funext fun a => Fin.ext (by match a with | ⟨0, _⟩ => rfl | ⟨1, _⟩ => rfl)
  have ec0 : ∀ k : Fin 1024, idx_main_call0_v1 (ix1 r) k = ix2 r k := fun k =>
    funext fun a => Fin.ext (by match a with | ⟨0, _⟩ => rfl | ⟨1, _⟩ => rfl)
  have ec1 : ∀ k : Fin 1024, idx_main_call1_v1 (ix1 r) k = ix2 r k := fun k =>
    funext fun a => Fin.ext (by match a with | ⟨0, _⟩ => rfl | ⟨1, _⟩ => rfl)
  rw [val_main_v19_apply, val_main_v17_apply, val_main_v12_apply, val_main_v16_apply, val_main_v11_apply,
    val_main_v15_apply, e11, e15, val_main_v14_apply, val_main_v10_apply, e10, val_main_v13_apply,
    val_main_cst_2_apply, val_main_v18_apply, val_main_cst_3_apply, val_main_v9_apply, val_main_v8_apply,
    val_main_cst_1_apply, val_main_v7_apply, val_main_v6_apply, val_main_v5_apply, val_main_cst_0_apply,
    val_main_v4_apply, val_main_v2_apply, val_main_v3_apply, val_main_v1_apply, val_main_call0_v1_apply,
    val_main_call1_v1_apply, val_main_cst_apply, val_main_call0_cst_apply, val_main_call1_cst_apply]
  simp only [e1, ec0, ec1, val_main_v0_apply, val_main_call0_v0_apply, val_main_call1_v0_apply,
    Ideal.ofBits_def, Ideal.mulf_def, Ideal.addf_def, Ideal.subf_def, Ideal.maximumf_def, Ideal.hostDivf_def,
    Ideal.hostUnary_sqrt_def, Ideal.ofBits_zero_f32, zero_add]
  rfl

end Cert.ReferenceIdeal.RefRow

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Payload.lean ====
/-
  What one store of the kernel writes, at an index. A store's value is computed from a 512-row chunk (a, b) of the
  two input blocks: per row p the three lane sums Σ a², Σ b², Σ a·b, kept as a column; the column
  w = 1 - Σ a·b / max (√Σ a² · √Σ b²) guard; and, with the column (1/2)·w repeated along the row,
  b + ((1/2)·w) · (a - b). At (p, q) that is the step form of rows p of the chunk. Both stores compute this same
  function of their own chunk.
-/
import proofs.«408143_j51127290692314_3_alg».proof.Proof.Gen.KernelIdeal.Skeleton
import proofs.«408143_j51127290692314_3_alg».proof.Proof.LibColumn
import proofs.«408143_j51127290692314_3_alg».proof.Proof.RowLaw
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The lane sum of a 512 x 1024 chunk, at row p, is the sum of the row's 1024 entries. -/
theorem laneSum_apply (v : FVec Ideal S512x1024 .f32) (hφ : FKind.Formats .f32)
    (hacc : (0x00000000#32 : BitVec 32) = 0x00000000#32) (p : Fin 512) :
    multiReduction .add [1] S512 v 0x00000000#32 reduces_S512x1024_S512 hφ hacc (ix1 p)
      = ∑ k : Fin 1024, v (ix2 p k) := by
  refine (Ideal.multiReduction_add_single v _ reduces_S512x1024_S512 hφ hacc (ix1 p)).trans ?_
  refine Finset.sum_congr rfl fun k _ => congrArg v ?_
  exact funext fun a => Fin.ext (by match a with | ⟨0, _⟩ => rfl | ⟨1, _⟩ => rfl)

/-- The elementwise root reads through at an index. -/
theorem sqrt_apply {s : Shape} (v : FVec Ideal s .f32) (i : s.Idx) : sqrt v i = Ideal.sqrt (v i) := rfl

/-- The first store's value at (p, q): the step form of rows p of its chunk. -/
theorem pay2_apply (a b : FVec Ideal S512x1024 .f32) (p : Fin 512) (q : Fin 1024) :
    k0_pay2 (F := Ideal) a b (ix2 p q)
      = Cert.RowLaw.stepRow (fun k : Fin 1024 => a (ix2 p k)) (fun k : Fin 1024 => b (ix2 p k)) q := by
  unfold k0_pay2
  simp only [addf_apply, mulf_apply, subf_apply, divf_apply, maximumf_apply, broadcast_apply, sqrt_apply,
    Cert.LibColumn.broadcastTo_a1_ab_apply, Cert.LibColumn.shapeCast_a_a1_apply, laneSum_apply, Ideal.ofBits_def]
  simp only [Cert.RowLaw.stepRow, Cert.RowLaw.step, Cert.RowLaw.weight]
  refine congrArg (fun z => b (ix2 p q) + Ideal.ofBits .f32 0x3F000000#32 * (Ideal.ofBits .f32 0x3F800000#32 - z)
    * (a (ix2 p q) - b (ix2 p q))) ?_
  refine congrArg₂ Ideal.div ?_ (congrArg (fun z => max z (Ideal.ofBits .f32 0x322BCC77#32))
    (congrArg₂ (fun x y => Ideal.sqrt x * Ideal.sqrt y) ?_ ?_))
  · exact laneSum_apply (mulf a b) _ _ p
  · exact laneSum_apply (mulf a a) _ _ p
  · exact laneSum_apply (mulf b b) _ _ p

/-- The second store's value is the same function of its own chunk (its row sums of squares arrive through
    two intermediate values, which are those of the first store's term). -/
theorem pay1_eq (a b : Vec Ideal S512x1024 .f32) :
    k0_pay1 (F := Ideal) a b (k0_pay3 a) (k0_pay4 b) = k0_pay2 a b := rfl

end Cert.KernelIdeal.Payload

end
-- ==== Proof.Block.lean ====
/-
  What the body leaves in the output's staging block, as ONE function of the two input blocks. The body stores twice:
  rows 0..511 from the chunk of rows 0..511 of the inputs, rows 512..1023 from the chunk of rows 512..1023. Each
  stored entry depends only on its own row of the chunk, and row p of the chunk at row offset o is row o + p of the
  block; so both stores are tiles of the block function
      (p, q) ↦ step form of rows p of the two input blocks, at q,
  and since the two tiles cover the block, the block reads back as that function.
-/
import proofs.«408143_j51127290692314_3_alg».proof.Proof.Gen.KernelIdeal.Frame
import proofs.«408143_j51127290692314_3_alg».proof.Proof.Payload
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.ValueIdx Idealize.ShloMosaic.Tactic

/-- The block function: entry (p, q) of a 1024 x 1024 block is the step form of rows p of the two input blocks. -/
def blockFn (x0 x1 : S1024x1024.Idx → EReal) (y : S1024x1024.Idx) : EReal :=
  Cert.RowLaw.stepRow (fun k : Fin 1024 => x0 (ix2 (⟨(y 0).val, idx2_lt0 y⟩ : Fin 1024) k))
    (fun k : Fin 1024 => x1 (ix2 (⟨(y 0).val, idx2_lt0 y⟩ : Fin 1024) k)) (⟨(y 1).val, idx2_lt1 y⟩ : Fin 1024)

/-- At (p, q) the block function reads rows p. -/
theorem blockFn_apply (x0 x1 : S1024x1024.Idx → EReal) (p q : Fin 1024) :
    blockFn x0 x1 (ix2 p q) = Cert.RowLaw.stepRow (fun k : Fin 1024 => x0 (ix2 p k)) (fun k : Fin 1024 => x1 (ix2 p k)) q := rfl

/-- A store of the payload of the 512-row chunk at row offset o is the tile of the block function its rectangle
    names: row p of the chunk is row o + p of the block, and the columns are the block's. -/
theorem tile (x0 x1 : Vec Ideal S1024x1024 .f32) (o : ℕ)
    (inb : ∀ a, (![o, 0] : Fin 2 → ℕ) a + (![512, 1024] : Fin 2 → ℕ) a ≤ S1024x1024.size a)
    (x : (Rect.unit (s := S1024x1024) ![o, 0] ![512, 1024] inb).shape.Idx) :
    k0_pay2 (F := Ideal) (View.ld x0 (Rect.unit (s := S1024x1024) ![o, 0] ![512, 1024] inb))
        (View.ld x1 (Rect.unit (s := S1024x1024) ![o, 0] ![512, 1024] inb)) x
      = blockFn x0 x1 ((Rect.unit (s := S1024x1024) ![o, 0] ![512, 1024] inb).emb x) := by
  obtain ⟨p, q, rfl⟩ : ∃ (p : Fin 512) (q : Fin 1024), x = ix2 p q := ⟨x 0, x 1, eq_ix2 x⟩
  refine (Cert.KernelIdeal.Payload.pay2_apply _ _ p q).trans ?_
  have hrow : ∀ k : Fin 1024, (Rect.unit (s := S1024x1024) ![o, 0] ![512, 1024] inb).idx (ix2 p k)
      = ix2 (⟨(((Rect.unit (s := S1024x1024) ![o, 0] ![512, 1024] inb).emb (ix2 p q)) 0).val, idx2_lt0 _⟩ : Fin 1024) k :=
    fun k => funext fun a => Fin.ext (by
      match a with
      | ⟨0, _⟩ => rfl
      | ⟨1, _⟩ => show 0 + 1 * k.val = k.val; omega)
  have hcol : (⟨(((Rect.unit (s := S1024x1024) ![o, 0] ![512, 1024] inb).emb (ix2 p q)) 1).val, idx2_lt1 _⟩ : Fin 1024) = q :=
    Fin.ext (show 0 + 1 * q.val = q.val by omega)
  unfold blockFn
  exact congr (congrArg₂ Cert.RowLaw.stepRow (funext fun k => congrArg x0 (hrow k)) (funext fun k => congrArg x1 (hrow k))) hcol.symm

/-- THE BLOCK after the body: the block function of the two input blocks. -/
theorem out_eq (c : Dev nD) (i : grid0.Coords) (arg1 : Memref sig .tc .vmem S1024x1024 .f32) (harg1 : arg1.IsWhole)
    (arg2 : Memref sig .tc .vmem S1024x1024 .f32) (harg2 : arg2.IsWhole) (arg3 : Memref sig .tc .vmem S1024x1024 .f32) (harg3 : arg3.IsWhole)
    (x0 x1 : Vec Ideal S1024x1024 .f32) :
    out0_A_2 (F := Ideal) c i arg1 harg1 arg2 harg2 arg3 harg3 x0 x1 = blockFn x0 x1 := by
  unfold out0_A_2
  rw [View.read_writes_eq_canon _ _ _ (cover0_A_2 c i arg1 harg1 arg2 harg2 arg3 harg3 x0 x1)]
  funext y
  refine View.canon_apply_of_pieces (blockFn x0 x1) _ ?_ y (cover0_A_2 c i arg1 harg1 arg2 harg2 arg3 harg3 x0 x1 y)
  unfold kernelRun0_A
  dsimp only
  sl_unfold_words
  simp only [View.readAt_eq_ld, harg1.read_unread, harg2.read_unread]
  intro pc hpc x
  rcases List.mem_cons.mp hpc with rfl | hpc
  · exact (congrFun (Cert.KernelIdeal.Payload.pay1_eq _ _) x).trans (tile x0 x1 512 _ x)
  · rcases List.mem_cons.mp hpc with rfl | hpc
    · exact tile x0 x1 0 _ x
    · exact absurd hpc List.not_mem_nil

end Cert.KernelIdeal.Block

end
-- ==== Proof.Merged.lean ====
/-
  The whole output array. Point t of the 16-point grid stages rows 1024 t .. 1024 t + 1023 (all 1024 columns) of
  each argument and writes the same rows of the output back. What it writes is the block function of its two
  input blocks, and row p of block t is row 1024 t + p of the array: so each write-back is block t of ONE array function,
      (r, q) ↦ step form of rows r of the two arguments, at q.
  Row r lies in block r / 1024, so the sixteen blocks cover the array and the array ends holding that function.
-/
import proofs.«408143_j51127290692314_3_alg».proof.Proof.Gen.KernelIdeal.Value
import proofs.«408143_j51127290692314_3_alg».proof.Proof.Block

set_option maxRecDepth 16384

noncomputable section

namespace Cert.KernelIdeal.Merged

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The merged array as one function of the argument arrays: entry (r, q) is the step form of rows r. -/
def mergedFn (A B : S16384x1024.Idx → EReal) (i : S16384x1024.Idx) : EReal :=
  Cert.RowLaw.stepRow (fun k : Fin 1024 => A (ix2 (⟨(i 0).val, idx2_lt0 i⟩ : Fin 16384) k))
    (fun k : Fin 1024 => B (ix2 (⟨(i 0).val, idx2_lt0 i⟩ : Fin 16384) k)) (⟨(i 1).val, idx2_lt1 i⟩ : Fin 1024)

/-- At (r, q) the merged function reads rows r. -/
theorem mergedFn_apply (A B : S16384x1024.Idx → EReal) (r : Fin 16384) (q : Fin 1024) :
    mergedFn A B (ix2 r q) = Cert.RowLaw.stepRow (fun k : Fin 1024 => A (ix2 r k)) (fun k : Fin 1024 => B (ix2 r k)) q := rfl

/-- The printed index maps, decided over the grid: at point t every window is at block row t, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the merged function of the argument arrays. -/
theorem flushed_eq (c : Dev nD) (t : Fin cfg0.N) :
    (dats m 0 c).flushed 2 t
      = ((cfg0.win 2).blk t).view.read (Elt Ideal) (mergedFn (V m c main_arg0) (V m c main_arg1)) := by
  rw [flushed2_A, Cert.KernelIdeal.Block.out_eq c (grid0.coords t) (ms0_0 t) (hs0_0 t) (ms0_1 t) (hs0_1 t) (ms0_2 t) (hs0_2 t)
    (iblk m c 0 t) (iblk m c 1 t)]
  obtain ⟨e00, e01, e10, e11, e20, e21⟩ := idx_facts t
  refine funext fun (y : S1024x1024.Idx) => ?_
  obtain ⟨p, q, rfl⟩ : ∃ (p q : Fin 1024), y = ix2 p q := ⟨y 0, y 1, eq_ix2 y⟩
  show Cert.KernelIdeal.Block.blockFn (iblk m c 0 t) (iblk m c 1 t) (ix2 p q)
    = mergedFn (V m c main_arg0) (V m c main_arg1) (((cfg0.win 2).blk t).view.emb (ix2 p q))
  rw [Cert.KernelIdeal.Block.blockFn_apply]
  unfold mergedFn
  refine congr (congrArg₂ Cert.RowLaw.stepRow (funext fun k => ?_) (funext fun k => ?_)) (Fin.ext ?_)
  · show V m c main_arg0 (((cfg0.win 0).blk t).view.emb (ix2 p k)) = V m c main_arg0 (ix2 _ k)
    refine congrArg _ (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 1024 + 1 * k.val = k.val
      omega
  · show V m c main_arg1 (((cfg0.win 1).blk t).view.emb (ix2 p k)) = V m c main_arg1 (ix2 _ k)
    refine congrArg _ (funext fun a => Fin.ext ?_)
    match a with
    | ⟨0, _⟩ =>
      show win0_1.index t (0 : Fin 2) * 1024 + 1 * p.val = win0_2.index t (0 : Fin 2) * 1024 + 1 * p.val
      omega
    | ⟨1, _⟩ =>
      show win0_1.index t (1 : Fin 2) * 1024 + 1 * k.val = k.val
      omega
  · show q.val = win0_2.index t (1 : Fin 2) * 1024 + 1 * q.val
    omega

/-- An index of the array is in point t's block iff each coordinate is in the block's range on its axis. -/
theorem mem_blk (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE COVER: row r is in the block of point r / 1024. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : grid0.N = 16 := N_0
  have ht : (i 0).val / 1024 < grid0.N := by omega
  obtain ⟨-, -, -, -, e20, e21⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    have e : win0_2.index ⟨(i 0).val / 1024, ht⟩ (0 : Fin 2) = (i 0).val / 1024 := e20
    omega
  | ⟨1, _⟩ =>
    show win0_2.index ⟨(i 0).val / 1024, ht⟩ (1 : Fin 2) * 1024 ≤ (i 1).val
      ∧ (i 1).val < win0_2.index ⟨(i 0).val / 1024, ht⟩ (1 : Fin 2) * 1024 + 1024
    omega

/-- THE ARRAY after the run: the merged function of the argument arrays. -/
theorem final (c : Dev nD) :
    (dats m 0 c).arrAt 2 cfg0.N
      = mergedFn (m ((c : Thread nD τ).loc main_arg0)) (m ((c : Thread nD τ).loc main_arg1)) :=
  (dats m 0 c).arrAt_eq_of_cover 2 _ (fun t _ => flushed_eq m c t) cover

/-- The kernel's run, read: every weakly fair execution ends with the output array at the merged function of the
    arguments, and the arguments unchanged. -/
theorem run : θ_run defs (onTc (τ := τ) (main (F := Ideal))) ⟨m, fun _ => 0, ρ⟩ fun r => ∀ c : Dev nD,
      r.2.mem ((c : Thread nD τ).loc main_v0)
        = mergedFn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Merged

end
-- ==== Proof.Bridge.lean ====
/-
  The two sides meet. For argument arrays of real numbers, the reference's result (the weighted-mean form of rows r,
  entry by entry) is the kernel's merged function (the step form of the same rows): the row law, at every (r, q).
-/
import proofs.«408143_j51127290692314_3_alg».proof.Proof.RefRow
import proofs.«408143_j51127290692314_3_alg».proof.Proof.Merged

noncomputable section

namespace Cert.Bridge

open Idealize.ShloMosaic Idealize.ShloMosaic.ValueIdx

/-- On arrays of reals the reference's result is the merged function of the arguments. -/
theorem ref_eq_merged (A B : (⟨2, ![16384, 1024]⟩ : Shape).Idx → EReal)
    (hA : ∀ i, ∃ r : ℝ, A i = (r : EReal)) (hB : ∀ i, ∃ r : ℝ, B i = (r : EReal)) :
    Cert.ReferenceIdeal.Read.val_main_v19 (F := Ideal) A B = Cert.KernelIdeal.Merged.mergedFn A B := by
  funext i
  obtain ⟨r, q, rfl⟩ : ∃ (r : Fin 16384) (q : Fin 1024), i = ix2 r q := ⟨i 0, i 1, eq_ix2 i⟩
  rw [Cert.ReferenceIdeal.RefRow.result_apply, Cert.KernelIdeal.Merged.mergedFn_apply]
  exact Cert.RowLaw.meanRow_eq_stepRow _ _ (fun k => hA (ix2 r k)) (fun k => hB (ix2 r k)) q

end Cert.Bridge

end
-- ==== Proof.lean ====
/- Two programs that merge two arrays A, B of shape [16384, 1024] row by row: with
     w = 1 - ⟨A_r, B_r⟩ / max (‖A_r‖ · ‖B_r‖) ε,
   the kernel writes B + (w/2) · (A - B), sixteen blocks of 1024 rows, each block in two 512-row stores, and the
   reference computes (w · A + (2 - w) · B) / 2 on whole arrays. On the extended reals the two forms differ at
   infinities, so the precondition (every input finite) is used: all entries are reals, the row sums and norms are
   reals, the clamped divisor is at least ε > 0, w is a real, and the two forms are one real number (2 · 1/2 = 1).
   The frames of the two kernel programs and the kernel's run are generated; the reference's frame is its generated
   run with the result dropped; the idealization rewrote nothing. -/
import proofs.«408143_j51127290692314_3_alg».proof.Defs
import proofs.«408143_j51127290692314_3_alg».proof.Proof.Gen.Kernel
import proofs.«408143_j51127290692314_3_alg».proof.Proof.Gen.Kernel.Skeleton
import proofs.«408143_j51127290692314_3_alg».proof.Proof.Gen.Kernel.Launch
import proofs.«408143_j51127290692314_3_alg».proof.Proof.Gen.Kernel.Points
import proofs.«408143_j51127290692314_3_alg».proof.Proof.Gen.Kernel.Frame
import proofs.«408143_j51127290692314_3_alg».proof.Proof.Gen.KernelIdeal
import proofs.«408143_j51127290692314_3_alg».proof.Proof.Gen.KernelIdeal.Skeleton
import proofs.«408143_j51127290692314_3_alg».proof.Proof.Gen.KernelIdeal.Launch
import proofs.«408143_j51127290692314_3_alg».proof.Proof.Gen.KernelIdeal.Points
import proofs.«408143_j51127290692314_3_alg».proof.Proof.Gen.KernelIdeal.Frame
import proofs.«408143_j51127290692314_3_alg».proof.Proof.Gen.ReferenceIdeal
import proofs.«408143_j51127290692314_3_alg».proof.Proof.Gen.Pre_finite_inputs
import proofs.«408143_j51127290692314_3_alg».proof.Proof.Gen.KernelIdeal.Value
import proofs.«408143_j51127290692314_3_alg».proof.Proof.Gen.ReferenceIdeal.Run
import proofs.«408143_j51127290692314_3_alg».proof.Proof.Gen.ReferenceIdeal.Read
import proofs.«408143_j51127290692314_3_alg».proof.Proof.Finite
import proofs.«408143_j51127290692314_3_alg».proof.Proof.Bridge
import Idealize.ShloMosaic.Adequacy
import Idealize.ShloMosaic.Init

noncomputable section

namespace Cert.Proof

open Idealize.ShloMosaic Idealize.SL.Sem Cert.Kernel

/-- Both kernel programs run and leave their arguments unchanged: the generated frames. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on finite arguments, the kernel's array ends at the merged function of the arguments and
    the reference's result is that function too (the bridge, on real entries). -/
theorem algebraic : Cert.algebraic_KernelIdeal_ReferenceIdeal := by
  intro m ρ m' ρ' hpre hagree
  refine ⟨fun c => Cert.KernelIdeal.Merged.mergedFn (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Merged.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hB⟩ := Cert.Finite.reals_of_pre _ _ (hpre c)
  rw [Cert.ReferenceIdeal.Read.val_main_v19_eq, (hagree c).1, (hagree c).2]
  exact Cert.Bridge.ref_eq_merged _ _ hA hB

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
